-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S256x2048 : Shape := ⟨2, ![256, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x2048_S256x2048_0_0 : ∀ a, (![0, 0] : Fin 2 → Nat) a + S256x2048.size a ≤ S256x2048.size a
  h_S256x2048 : 0 < S256x2048.numel
  natLt_1_32 : 1 < 32
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .bf16 = 32 ∨ (Rect.block (s := S2048x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x2048.size a
  hwx1_2 : ∀ i : grid1.Coords, EltTy.bits .f32 = 32 ∨ (Rect.block (s := S8192x2048) S512x1024.size (cc1_transform_2 i) (hinb1_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.BinaryMatmul.lean ====
/-
  The mathematics both programs compute, stated once over the argument arrays.

  A weight entry is replaced by the indicator of its being positive, an extended real that is 0 or 1, and the
  result is the matrix product of the activations with that 0/1 matrix:
      out[r, c] = ∑ k, x[r, k] · 𝟙(w[k, c] > 0).
  One program reads the comparison bit as an unsigned integer; the other widens it to 32 bits and reads it as a
  signed integer. A one-bit word widened with zeros is 0 or 1 in either reading, so the two indicators agree.
-/
import Idealize.ShloMosaic.PureOps.Ideal
import Idealize.ShloMosaic.Lib.ValueIdx

noncomputable section

namespace Cert.BinaryMatmul

open Idealize.ShloMosaic Idealize.ShloMosaic.ValueIdx

/-- The activations' shape, the weights' shape. -/
abbrev SX : Shape := ⟨2, ![8192, 2048]⟩
abbrev SW : Shape := ⟨2, ![2048, 2048]⟩

/-- The indicator of `a > 0` as an extended real: the comparison's bit read as a natural number. -/
def pos01 (a : EReal) : EReal :=
  (((FloatOps.cmpf (F := Ideal) (φ := .f32) .ogt a (FloatOps.ofBits (F := Ideal) .f32 0x00000000#32)).toNat : ℝ) : EReal)

/-- A one-bit word widened with zeros to 32 bits reads the same signed as the bit reads unsigned. -/
theorem toInt_setWidth_bit : ∀ c : BitVec 1, (c.setWidth 32).toInt = (c.toNat : ℤ) := by decide

/-- The signed reading of the widened comparison bit is the indicator. -/
theorem sitofp_widened (a : EReal) :
    FloatOps.sitofp (F := Ideal) .f32
        ((FloatOps.cmpf (F := Ideal) (φ := .f32) .ogt a (FloatOps.ofBits (F := Ideal) .f32 0x00000000#32)).setWidth 32)
      = pos01 a := by
  show (((_ : BitVec 32).toInt : ℝ) : EReal) = _
  rw [toInt_setWidth_bit]
  unfold pos01
  norm_cast

/-- The unsigned reading of the comparison bit is the indicator. -/
theorem uitofp_bit (a : EReal) :
    FloatOps.uitofp (F := Ideal) .f32
        (FloatOps.cmpf (F := Ideal) (φ := .f32) .ogt a (FloatOps.ofBits (F := Ideal) .f32 0x00000000#32))
      = pos01 a := rfl

/-- The 0/1 matrix of the weights' positive entries. -/
def binarized (w : SW.Idx → EReal) : SW.Idx → EReal := fun i => pos01 (w i)

/-- The product of an activation matrix with a weight-shaped matrix: row `r`, column `c` is `∑ k, x[r, k] · b[k, c]`. -/
def matProd (x : SX.Idx → EReal) (b : SW.Idx → EReal) : SX.Idx → EReal :=
  fun i => ∑ k : Fin 2048, x (ix2 (n0 := 8192) (n1 := 2048) ⟨(i 0).val, (i 0).isLt⟩ k)
    * b (ix2 (n0 := 2048) (n1 := 2048) k ⟨(i 1).val, (i 1).isLt⟩)

/-- What both programs leave in the result: the activations times the binarized weights. -/
def result (x : SX.Idx → EReal) (w : SW.Idx → EReal) : SX.Idx → EReal := matProd x (binarized w)

end Cert.BinaryMatmul

end
-- ==== Proof.RefValue.lean ====
/-
  The reference's result, index by index, is the product of the activations with the binarized weights.
  Its last operation is a contraction of the activations' second axis with the first axis of the 0/1 matrix, read as
  a sum over the contracted coordinate; the 0/1 matrix is the comparison with a broadcast zero read as an unsigned
  integer, which is the indicator of the weight being positive.
-/
import proofs.«179662_j8693013807478_1_alg».proof.Proof.Gen.ReferenceIdeal.Read
import proofs.«179662_j8693013807478_1_alg».proof.Proof.BinaryMatmul

noncomputable section

namespace Cert.ReferenceIdeal.IsResult

open Cert.ReferenceIdeal Cert.ReferenceIdeal.Read Cert.BinaryMatmul
open Idealize.ShloMosaic Idealize.ShloMosaic.ValueIdx

/-- The left operand's index at output index `i` and contracted coordinate `k` is (row of `i`, `k`). -/
theorem lidx_eq (i : S8192x2048.Idx) (k : Fin 2048) :
    lidx_main_v3 i k = ix2 (n0 := 8192) (n1 := 2048) ⟨(i 0).val, (i 0).isLt⟩ k :=
  funext fun a => Fin.ext (by match a with | ⟨0, _⟩ => rfl | ⟨1, _⟩ => rfl)

/-- The right operand's index is (`k`, column of `i`). -/
theorem ridx_eq (i : S8192x2048.Idx) (k : Fin 2048) :
    ridx_main_v3 i k = ix2 (n0 := 2048) (n1 := 2048) k ⟨(i 1).val, (i 1).isLt⟩ :=
  funext fun a => Fin.ext (by match a with | ⟨0, _⟩ => rfl | ⟨1, _⟩ => rfl)

/-- The converted comparison at an index is the indicator of the weight there. -/
theorem mask_apply (w : SW.Idx → EReal) (j : SW.Idx) : val_main_v2 (F := Ideal) w j = pos01 (w j) := by
  rw [val_main_v2_apply, val_main_v1_apply, val_main_v0_apply, val_main_cst_apply]
  exact uitofp_bit (w j)

/-- The reference's last stage is `result` of the two arguments. -/
theorem stage_eq (x : SX.Idx → EReal) (w : SW.Idx → EReal) : val_main_v3 (F := Ideal) x w = result x w := by
  funext i
  rw [val_main_v3_apply]
  unfold result matProd binarized
  refine Finset.sum_congr rfl fun k _ => ?_
  rw [lidx_eq, ridx_eq, mask_apply]

end Cert.ReferenceIdeal.IsResult

end
-- ==== Proof.BinarizeRegion.lean ====
/-
  The first region: the array it leaves is the 0/1 matrix of the weights' positive entries.
  Each grid point reads one band of 256 rows of the weights and writes the same band of the output, every entry the
  indicator of the entry read; the eight bands tile the 2048 rows.
-/
import proofs.«179662_j8693013807478_1_alg».proof.Proof.Gen.KernelIdeal.Frame
import proofs.«179662_j8693013807478_1_alg».proof.Proof.BinaryMatmul
import Idealize.ShloMosaic.Lib.Pipeline.Value

set_option maxRecDepth 16384

noncomputable section

namespace Cert.KernelIdeal.Binarize

open Cert.KernelIdeal Cert.KernelIdeal.Gen Cert.BinaryMatmul
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an index of the band is the indicator of the entry loaded there. -/
theorem stored_apply (x0 : Vec Ideal S256x2048 .f32) (j : S256x2048.Idx) : k0_pay1 x0 j = pos01 (x0 j) :=
  sitofp_widened (x0 j)

/-- Over the grid: the band read and the band written have the same block index, the row-band index is below 8,
    and the column index is 0. -/
theorem bands : ∀ t : Fin cfg0.N, win0_0.index t (0 : Fin 2) = win0_1.index t (0 : Fin 2)
    ∧ win0_0.index t (1 : Fin 2) = win0_1.index t (1 : Fin 2)
    ∧ win0_1.index t (0 : Fin 2) ≤ 7 ∧ win0_1.index t (1 : Fin 2) = 0 :=
  (by decide +kernel : ∀ t : Fin grid0.N, _)

/-- Every band is some point's. -/
theorem bands_onto : ∀ q : Fin 8, ∃ t : Fin cfg0.N, win0_1.index t = ![q.val, 0] :=
  (by decide +kernel : ∀ q : Fin 8, ∃ t : Fin grid0.N, win0_1.index t = ![q.val, 0])

/-- What point `t` writes back is its band of the binarized weights. -/
theorem flushed_eq (c : Dev nD) (t : Fin cfg0.N) :
    (dat0 V c).flushed 1 t = ((cfg0.win 1).blk t).view.read (Elt Ideal) (binarized (V c main_arg1)) := by
  show (cfg0.win 1).cut (grid0.coords t) ((dat0 V c).after 1 t) = _
  rw [after0_1]
  unfold out0_1
  rw [View.canon_unit_zero origin]
  simp only [View.ld_unit_zero (S := S256x2048) origin]
  funext j
  show k0_pay1 (iblk0 V c 0 t) j = binarized (V c main_arg1) (((cfg0.win 1).blk t).view.emb j)
  refine (stored_apply (iblk0 V c 0 t) j).trans ?_
  show pos01 (V c main_arg1 (((cfg0.win 0).blk t).view.emb j)) = pos01 (V c main_arg1 (((cfg0.win 1).blk t).view.emb j))
  have same : ((cfg0.win 0).blk t).view.emb j = ((cfg0.win 1).blk t).view.emb j := by
    obtain ⟨e0, e1, e2, e3⟩ := bands t
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * (j 1).val = win0_1.index t (1 : Fin 2) * 2048 + 1 * (j 1).val; omega
  rw [same]

/-- An index of the array lies in point `t`'s band iff each coordinate lies in the band's range on its axis. -/
theorem mem_band (t : Fin cfg0.N) (i : S2048x2048.Idx) :
    i ∈ ((cfg0.win 1).blk t).view.set ↔ ∀ a : Fin 2, win0_1.index t a * S256x2048.size a ≤ (i a).val
      ∧ (i a).val < win0_1.index t a * S256x2048.size a + S256x2048.size a := by
  show i ∈ ((View.whole main_v0).slice (win0_1.rect t)).set ↔ _
  rw [View.set_slice_whole, Rect.mem_set_unit]
  exact Iff.rfl

/-- The bands tile the array: row `r` lies in band `r / 256`. -/
theorem cover (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  obtain ⟨t, ht⟩ := bands_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_band]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- After the region the output array is the binarized weights, whatever the region found in it. -/
theorem final (c : Dev nD) : (dat0 V c).arrAt 1 cfg0.N = binarized (V c main_arg1) :=
  (dat0 V c).arrAt_eq_of_cover 1 (binarized (V c main_arg1)) (fun t _ => flushed_eq V c t) cover

end Cert.KernelIdeal.Binarize

end
-- ==== Proof.MatmulRegion.lean ====
/-
  The second region: the array it leaves is the product of the activations with the weight-shaped matrix it reads.
  Grid point (p, q) reads the band of 512 rows p of the activations, the band of 1024 columns q of the second
  operand, and writes the 512 × 1024 tile (p, q) of the output: entry (a, b) of the tile is the sum over the 2048
  contracted coordinates k of row a of the activations' band times column b of the operand's band, the accumulator
  starting at zero. The 16 × 2 tiles cover the output.
-/
import proofs.«179662_j8693013807478_1_alg».proof.Proof.Gen.KernelIdeal.Frame
import proofs.«179662_j8693013807478_1_alg».proof.Proof.BinaryMatmul
import Idealize.ShloMosaic.Lib.Pipeline.Value
import Idealize.ShloMosaic.PureOps.Ideal.Laws

set_option maxRecDepth 16384

noncomputable section

namespace Cert.KernelIdeal.Matmul

open Cert.KernelIdeal Cert.KernelIdeal.Gen Cert.BinaryMatmul
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The tile's entry as a sum over the contracted coordinate -/

/-- The left operand's index keeps the output's row … -/
theorem lhs_row (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- … and takes the contracted coordinate as its column. -/
theorem lhs_col (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- The right operand's index takes the contracted coordinate as its row … -/
theorem rhs_row (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- … and keeps the output's column. -/
theorem rhs_col (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Entry `j` of the stored tile: the change of float format is the identity and the accumulator is zero, so it is
    the plain sum of products along the contracted axis. -/
theorem stored_apply (x0 : Vec Ideal S512x2048 .f32) (x1 : Vec Ideal S2048x1024 .bf16) (j : S512x1024.Idx) :
    k1_pay1 x0 x1 j = ∑ k : Fin 2048, x0 (ix2 (n0 := 512) (n1 := 2048) ⟨(j 0).val, (j 0).isLt⟩ k)
      * x1 (ix2 (n0 := 2048) (n1 := 1024) k ⟨(j 1).val, (j 1).isLt⟩) := by
  unfold k1_pay1
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx j ((contrEquiv1 dot_S512x2048_S2048x1024_S512x1024_1_0_0_1_n_n 2048 rfl rfl).symm k)
      = ix2 (n0 := 512) (n1 := 2048) ⟨(j 0).val, (j 0).isLt⟩ k := funext fun a => Fin.ext (by
    match a with
    | ⟨0, _⟩ => exact lhs_row _ _
    | ⟨1, _⟩ => exact (lhs_col _ _).trans hk)
  have er : dot_S512x2048_S2048x1024_S512x1024_1_0_0_1_n_n.rhsIdx j ((contrEquiv1 dot_S512x2048_S2048x1024_S512x1024_1_0_0_1_n_n 2048 rfl rfl).symm k)
      = ix2 (n0 := 2048) (n1 := 1024) k ⟨(j 1).val, (j 1).isLt⟩ := funext fun a => Fin.ext (by
    match a with
    | ⟨0, _⟩ => exact (rhs_row _ _).trans hk
    | ⟨1, _⟩ => exact rhs_col _ _)
  rw [el, er, shapeCast_self]
  rfl

/-! ## From tiles to the array -/

/-- Over the grid: the activations' band moves with the output tile's row index and spans all columns; the second
    operand's band spans all rows and moves with the tile's column index; the tile indices stay in 16 × 2. -/
theorem tiles : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 15 ∧ win1_2.index t (1 : Fin 2) ≤ 1 :=
  (by decide +kernel : ∀ t : Fin grid1.N, _)

/-- Every tile of the 16 × 2 box is some point's. -/
theorem tiles_onto : ∀ (p : Fin 16) (q : Fin 2), ∃ t : Fin cfg1.N, win1_2.index t = ![p.val, q.val] :=
  (by decide +kernel : ∀ (p : Fin 16) (q : Fin 2), ∃ t : Fin grid1.N, win1_2.index t = ![p.val, q.val])

/-- What point `t` writes back is its tile of the product of the two arrays the region reads. -/
theorem flushed_eq (c : Dev nD) (t : Fin cfg1.N) :
    (dat1 V c).flushed 2 t
      = ((cfg1.win 2).blk t).view.read (Elt Ideal) (matProd (V c main_arg0) (V c main_v0)) := by
  show (cfg1.win 2).cut (grid1.coords t) ((dat1 V c).after 2 t) = _
  rw [after1_2]
  unfold out1_2
  rw [View.canon_unit_zero origin]
  simp only [View.ld_unit_zero (S := S512x2048) origin, View.ld_unit_zero (S := S2048x1024) origin]
  funext j
  show k1_pay1 (iblk1 V c 0 t) (iblk1 V c 1 t) j
    = matProd (V c main_arg0) (V c main_v0) (((cfg1.win 2).blk t).view.emb j)
  refine (stored_apply (iblk1 V c 0 t) (iblk1 V c 1 t) j).trans ?_
  unfold matProd
  refine Finset.sum_congr rfl fun k _ => ?_
  obtain ⟨e0, e1, e2, e3, e4, e5⟩ := tiles t
  refine congrArg₂ (· * ·) ?_ ?_
  · show V c main_arg0 (((cfg1.win 0).blk t).view.emb (ix2 (n0 := 512) (n1 := 2048) ⟨(j 0).val, (j 0).isLt⟩ k)) = _
    refine congrArg (V c main_arg0) ?_
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 2048 + 1 * k.val = k.val; omega
  · show V c main_v0 (((cfg1.win 1).blk t).view.emb (ix2 (n0 := 2048) (n1 := 1024) k ⟨(j 1).val, (j 1).isLt⟩)) = _
    refine congrArg (V c main_v0) ?_
    funext a; apply Fin.ext
    match a with
    | ⟨0, _⟩ => show win1_1.index t (0 : Fin 2) * 2048 + 1 * k.val = k.val; omega
    | ⟨1, _⟩ => show win1_1.index t (1 : Fin 2) * 1024 + 1 * (j 1).val = win1_2.index t (1 : Fin 2) * 1024 + 1 * (j 1).val; omega

/-- An index of the array lies in point `t`'s tile iff each coordinate lies in the tile's range on its axis. -/
theorem mem_tile (t : Fin cfg1.N) (i : S8192x2048.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v1).slice (win1_2.rect t)).set ↔ _
  rw [View.set_slice_whole, Rect.mem_set_unit]
  exact Iff.rfl

/-- The tiles cover the array: entry (r, c) lies in tile (r / 512, c / 1024). -/
theorem cover (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := tiles_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_tile]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- After the region the output array is the product of the two arrays it read, whatever it found in the output. -/
theorem final (c : Dev nD) : (dat1 V c).arrAt 2 cfg1.N = matProd (V c main_arg0) (V c main_v0) :=
  (dat1 V c).arrAt_eq_of_cover 2 (matProd (V c main_arg0) (V c main_v0)) (fun t _ => flushed_eq V c t) cover

end Cert.KernelIdeal.Matmul

end
-- ==== Proof.KernelResult.lean ====
/-
  The idealized kernel's result array after the run, as one function of the two argument arrays.
  The second region leaves the product of the two arrays it reads. The first of them is the activations, which no
  region writes, so it is as launched; the second is the first region's output, which that region leaves at the
  0/1 matrix of the launched weights' positive entries. So the result is the activations times the binarized weights.
-/
import proofs.«179662_j8693013807478_1_alg».proof.Proof.KernelRun
import proofs.«179662_j8693013807478_1_alg».proof.Proof.BinarizeRegion
import proofs.«179662_j8693013807478_1_alg».proof.Proof.MatmulRegion

noncomputable section

namespace Cert.KernelIdeal.Result

open Cert.KernelIdeal Cert.KernelIdeal.Gen Cert.BinaryMatmul
open Idealize.ShloMosaic Idealize.ShloMosaic.TcCoe Idealize.SL.Sem

variable (m : (ℓ : Loc nD τ sig) → Buf (Elt Ideal) ℓ) (ρ : Dev nD → PrngReg)

/-- The second region finds the activations as launched: the first region has no window on them. -/
theorem activations_kept (c : Dev nD) : V1 m ρ c main_arg0 = m ((c.tc : Thread nD τ).loc main_arg0) :=
  W1_of_ne m ρ c main_arg0 (by decide)

/-- The second region finds, in the first region's output array, the binarized launched weights. -/
theorem weights_binarized (c : Dev nD) :
    V1 m ρ c main_v0 = binarized (m ((c.tc : Thread nD τ).loc main_arg1)) :=
  (W1_arr m ρ c 1).trans (Binarize.final (V0 m ρ) c)

/-- The result array at the end of the run. -/
theorem result_eq (c : Dev nD) :
    W2 m ρ c (Proc.devRef .tc main_v1)
      = result (m ((c.tc : Thread nD τ).loc main_arg0)) (m ((c.tc : Thread nD τ).loc main_arg1)) := by
  refine (W2_arr m ρ c 2).trans ((Matmul.final (V1 m ρ) c).trans ?_)
  rw [activations_kept, weights_binarized]
  rfl

/-- Every weakly fair execution of the idealized kernel ends with the result array at `result` of the launched
    arguments, and the arguments unchanged. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Named.run m ρ)

end Cert.KernelIdeal.Result

end
-- ==== Proof.lean ====
/-
  The proof of `Cert.Claim`: a weight matrix is binarized (1 where positive, 0 elsewhere) and the activations are
  multiplied by it. The kernel does this in two regions — a banded elementwise pass, then a tiled product with the
  whole contracted axis resident — and the reference in one comparison, one conversion and one contraction.
  Over the extended reals both results are, entry by entry, `∑ k, x[r, k] · 𝟙(w[k, c] > 0)`: a change of float
  format is the identity, the product accumulates from zero, and the comparison's bit is 0 or 1 whether it is read
  unsigned or widened and read signed. No law beyond that is used, so finiteness of the inputs is never opened.
  The frames of the two kernel programs are the generated ones; the reference's frame is its run with the result
  forgotten; nothing was rewritten by the idealization, so it preserves trivially.
-/
import proofs.«179662_j8693013807478_1_alg».proof.Defs
import proofs.«179662_j8693013807478_1_alg».proof.Proof.Gen.Kernel
import proofs.«179662_j8693013807478_1_alg».proof.Proof.Gen.Kernel.Skeleton
import proofs.«179662_j8693013807478_1_alg».proof.Proof.Gen.Kernel.Launch
import proofs.«179662_j8693013807478_1_alg».proof.Proof.Gen.Kernel.Points
import proofs.«179662_j8693013807478_1_alg».proof.Proof.Gen.Kernel.Frame
import proofs.«179662_j8693013807478_1_alg».proof.Proof.Gen.KernelIdeal
import proofs.«179662_j8693013807478_1_alg».proof.Proof.Gen.KernelIdeal.Skeleton
import proofs.«179662_j8693013807478_1_alg».proof.Proof.Gen.KernelIdeal.Launch
import proofs.«179662_j8693013807478_1_alg».proof.Proof.Gen.KernelIdeal.Points
import proofs.«179662_j8693013807478_1_alg».proof.Proof.Gen.KernelIdeal.Frame
import proofs.«179662_j8693013807478_1_alg».proof.Proof.Gen.ReferenceIdeal
import proofs.«179662_j8693013807478_1_alg».proof.Proof.Gen.ReferenceIdeal.Run
import proofs.«179662_j8693013807478_1_alg».proof.Proof.Gen.ReferenceIdeal.Read
import proofs.«179662_j8693013807478_1_alg».proof.Proof.Gen.Pre_finite_inputs
import proofs.«179662_j8693013807478_1_alg».proof.Proof.RefValue
import proofs.«179662_j8693013807478_1_alg».proof.Proof.KernelResult
import Idealize.ShloMosaic.Adequacy
import Idealize.ShloMosaic.Init

noncomputable section

namespace Cert.Proof

open Idealize.ShloMosaic Idealize.SL.Sem Cert.BinaryMatmul

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the activations times the binarized weights; the arguments agree,
    so the two arrays are equal. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.IsResult.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
